-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_1)) (v1 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_1) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x65536x1024 : Shape := ⟨3, ![3, 65536, 1024]⟩
abbrev S65536 : Shape := ⟨1, ![65536]⟩
abbrev S_ : Shape := ⟨0, ![]⟩

class Facts : Prop where
  bcast_S_S3x65536x1024 : S_.BroadcastsInDim S3x65536x1024 (![] : Fin 0 → Fin S3x65536x1024.rank)
  reducesTo_S3x65536x1024_S_d0_1_2 : S3x65536x1024.ReducesTo [0, 1, 2] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S3x65536x1024 .f32) (main_arg1 : IVec S65536 32) : IVec S_ 1 :=
  let main_v0 : FVec F S3x65536x1024 .f32 := Host.absf main_arg0
  let main_cst : FVec F S_ .f32 := constant S_ .f32 0x7F800000#32
  let main_v1 : FVec F S3x65536x1024 .f32 := broadcastInDim S3x65536x1024 ![] bcast_S_S3x65536x1024 main_cst
  let main_v2 : IVec S3x65536x1024 1 := cmpf .olt main_v0 main_v1
  let main_c : IVec S_ 1 := constantI S_ 1 1#1
  let main_v3 : IVec S_ 1 := (fun x v => Host.reduce IntOp.andi x v reducesTo_S3x65536x1024_S_d0_1_2 h_S_) main_v2 main_c
  let main_c_0 : IVec S_ 32 := constantI S_ 32 0#32
  let main_v4 : IVec S65536 32 := broadcastInDim S65536 ![] bcast_S_S65536 main_c_0
  let main_v5 : IVec S65536 1 := cmpi .sge main_arg1 main_v4
  let main_c_1 : IVec S_ 1 := constantI S_ 1 1#1
  let main_v6 : IVec S_ 1 := (fun x v => Host.reduce IntOp.andi x v reducesTo_S65536_S_d0 h_S_) main_v5 main_c_1
  let main_v7 : IVec S_ 1 := andi main_v3 main_v6
  let main_c_2 : IVec S_ 32 := constantI S_ 32 1024#32
  let main_v8 : IVec S65536 32 := broadcastInDim S65536 ![] bcast_S_S65536 main_c_2
  let main_v9 : IVec S65536 1 := cmpi .slt main_arg1 main_v8
  let main_c_3 : IVec S_ 1 := constantI S_ 1 1#1
  let main_v10 : IVec S_ 1 := (fun x v => Host.reduce IntOp.andi x v reducesTo_S65536_S_d0 h_S_) main_v9 main_c_3
  let main_v11 : IVec S_ 1 := andi main_v7 main_v10
  main_v11
-- ==== Kernel.lean ====
abbrev S3x65536x1024 : Shape := ⟨3, ![3, 65536, 1024]⟩
abbrev S65536 : Shape := ⟨1, ![65536]⟩
abbrev S_ : Shape := ⟨0, ![]⟩
abbrev S65536x1 : Shape := ⟨2, ![65536, 1]⟩
abbrev S65536x1024 : Shape := ⟨2, ![65536, 1024]⟩
abbrev S3x512x1024 : Shape := ⟨3, ![3, 512, 1024]⟩
abbrev S512x1 : Shape := ⟨2, ![512, 1]⟩
abbrev S512x1024 : Shape := ⟨2, ![512, 1024]⟩
abbrev S512 : Shape := ⟨1, ![512]⟩
abbrev S1x512x1024 : Shape := ⟨3, ![1, 512, 1024]⟩

abbrev nBuf : Space → Nat
  | .hbm => 13
  | .vmem => 8
  | .smem => 0
  | _ => 0

abbrev bufTy : (tb : Table) → Fin (tcTables nBuf tb) → BufTy
  | .hbm, ⟨0, _⟩ => ⟨S3x65536x1024, .f32⟩
  | .hbm, ⟨1, _⟩ => ⟨S65536, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S65536, .i32⟩
  | .hbm, ⟨6, _⟩ => ⟨S65536, .i32⟩
  | .hbm, ⟨7, _⟩ => ⟨S_, .i32⟩
  | .hbm, ⟨8, _⟩ => ⟨S65536, .i32⟩
  | .hbm, ⟨9, _⟩ => ⟨S65536, .i32⟩
  | .hbm, ⟨10, _⟩ => ⟨S65536x1, .i32⟩
  | .hbm, ⟨11, _⟩ => ⟨S65536x1024, .f32⟩
  | .hbm, ⟨12, _⟩ => ⟨S65536, .f32⟩
  | .local _ .vmem, ⟨0, _⟩ => ⟨S3x512x1024, .f32⟩
  | .local _ .vmem, ⟨1, _⟩ => ⟨S3x512x1024, .f32⟩
  | .local _ .vmem, ⟨2, _⟩ => ⟨S512x1, .i32⟩
  | .local _ .vmem, ⟨3, _⟩ => ⟨S512x1, .i32⟩
  | .local _ .vmem, ⟨4, _⟩ => ⟨S512x1024, .f32⟩
  | .local _ .vmem, ⟨5, _⟩ => ⟨S512x1024, .f32⟩
  | .local _ .vmem, ⟨6, _⟩ => ⟨S512, .f32⟩
  | .local _ .vmem, ⟨7, _⟩ => ⟨S512, .f32⟩
  | _, _ => ⟨S3x65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c3_i32 : BitVec 32 := 3#32
  let v2 : BitVec 32 := Scalar.addi c0_i32 c3_i32
  let c1_i32 : BitVec 32 := 1#32
  ⟨c0_i32, v2, c1_i32⟩
def k0_off1 (k0_t1 : Fin k0_t1_loop.trips) : Fin 3 → Nat :=
  let c0_i32_11 : BitVec 32 := 0#32
  let c0_i32 : BitVec 32 := 0#32
  let c1_i32 : BitVec 32 := 1#32
  let arg5 : BitVec 32 := Scf.iv c0_i32 c1_i32 k0_t1
  let c1_i32_10 : BitVec 32 := 1#32
  let v16 : BitVec 32 := Scalar.muli arg5 c1_i32_10
  let v17 : BitVec 32 := Scalar.addi c0_i32_11 v16
  let v18 : Index := Scalar.indexCast v17
  let c0_12 : Index := 0#32
  let c0_13 : Index := 0#32
  ![v18.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S3x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S65536 : S_.BroadcastsInDim S65536 (![] : Fin 0 → Fin S65536.rank)
  shapeCasts_S65536_S65536x1 : S65536.ShapeCasts S65536x1
  inb_S512x1024_S512x1024_0_0 : ∀ a, (![0, 0] : Fin 2 → Nat) a + S512x1024.size a ≤ S512x1024.size a
  h_S512x1024 : 0 < S512x1024.numel
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  shapeCasts_S512x1024_S512x1024 : S512x1024.ShapeCasts S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1024_d1_w32 : S512x1024.Iotas .tc 32 [1]
  inb_S512_S512_0 : ∀ a, (![0] : Fin 1 → Nat) a + S512.size a ≤ S512.size a
  h_S512 : 0 < S512.numel
  hrank0 : 0 < grid0.rank
  k0_t1_ok : k0_t1_loop.OK
  k0_off1_inb : ∀ k0_t1 : Fin k0_t1_loop.trips, ∀ a, (k0_off1 k0_t1) a + S1x512x1024.size a ≤ S3x512x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x512x1024.size a ≤ S3x65536x1024.size a
  hwx0_0 : ∀ i : grid0.Coords, EltTy.bits .f32 = 32 ∨ (Rect.block (s := S3x65536x1024) S3x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S65536x1.size a
  hwx0_1 : ∀ i : grid0.Coords, EltTy.bits .i32 = 32 ∨ (Rect.block (s := S65536x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S65536x1024.size a
  hwx0_2 : ∀ i : grid0.Coords, EltTy.bits .f32 = 32 ∨ (Rect.block (s := S65536x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S65536.size a
  hwx0_3 : ∀ i : grid0.Coords, EltTy.bits .f32 = 32 ∨ (Rect.block (s := S65536) S512.size (cc0_transform_3 i) (hinb0_3 i)).WholeWords (EltTy.packing .f32)

variable [Facts₀]

abbrev win0_0 : Pipeline.Window sig grid0 :=
  Pipeline.Window.ofSpec (Memref.whole main_arg0) S3x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S3x65536x1024 : Shape := ⟨3, ![3, 65536, 1024]⟩
abbrev S65536 : Shape := ⟨1, ![65536]⟩
abbrev S_ : Shape := ⟨0, ![]⟩
abbrev S3x65536 : Shape := ⟨2, ![3, 65536]⟩
abbrev S3x65536x1 : Shape := ⟨3, ![3, 65536, 1]⟩
abbrev S65536x1024 : Shape := ⟨2, ![65536, 1024]⟩
abbrev S65536x1 : Shape := ⟨2, ![65536, 1]⟩
abbrev S65536x1x1 : Shape := ⟨3, ![65536, 1, 1]⟩
abbrev S1 : Shape := ⟨1, ![1]⟩
abbrev S1x1x1 : Shape := ⟨3, ![1, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S3x65536x1024, .f32⟩
  | .hbm, ⟨1, _⟩ => ⟨S65536, .i32⟩
  | .hbm, ⟨2, _⟩ => ⟨S_, .f32⟩
  | .hbm, ⟨3, _⟩ => ⟨S3x65536, .f32⟩
  | .hbm, ⟨4, _⟩ => ⟨S_, .f32⟩
  | .hbm, ⟨5, _⟩ => ⟨S3x65536, .f32⟩
  | .hbm, ⟨6, _⟩ => ⟨S3x65536, .f32⟩
  | .hbm, ⟨7, _⟩ => ⟨S3x65536x1, .f32⟩
  | .hbm, ⟨8, _⟩ => ⟨S3x65536x1024, .f32⟩
  | .hbm, ⟨9, _⟩ => ⟨S3x65536x1024, .f32⟩
  | .hbm, ⟨10, _⟩ => ⟨S3x65536x1024, .f32⟩
  | .hbm, ⟨11, _⟩ => ⟨S_, .f32⟩
  | .hbm, ⟨12, _⟩ => ⟨S3x65536, .f32⟩
  | .hbm, ⟨13, _⟩ => ⟨S3x65536x1, .f32⟩
  | .hbm, ⟨14, _⟩ => ⟨S3x65536x1, .f32⟩
  | .hbm, ⟨15, _⟩ => ⟨S3x65536x1024, .f32⟩
  | .hbm, ⟨16, _⟩ => ⟨S3x65536x1024, .f32⟩
  | .hbm, ⟨17, _⟩ => ⟨S_, .f32⟩
  | .hbm, ⟨18, _⟩ => ⟨S3x65536x1024, .f32⟩
  | .hbm, ⟨19, _⟩ => ⟨S3x65536x1024, .f32⟩
  | .hbm, ⟨20, _⟩ => ⟨S3x65536x1024, .f32⟩
  | .hbm, ⟨21, _⟩ => ⟨S3x65536x1024, .f32⟩
  | .hbm, ⟨22, _⟩ => ⟨S_, .f32⟩
  | .hbm, ⟨23, _⟩ => ⟨S65536x1024, .f32⟩
  | .hbm, ⟨24, _⟩ => ⟨S65536x1, .i32⟩
  | .hbm, ⟨25, _⟩ => ⟨S_, .i32⟩
  | .hbm, ⟨26, _⟩ => ⟨S65536x1, .i32⟩
  | .hbm, ⟨27, _⟩ => ⟨S65536x1, .i1⟩
  | .hbm, ⟨28, _⟩ => ⟨S_, .i32⟩
  | .hbm, ⟨29, _⟩ => ⟨S65536x1, .i32⟩
  | .hbm, ⟨30, _⟩ => ⟨S65536x1, .i32⟩
  | .hbm, ⟨31, _⟩ => ⟨S65536x1, .i32⟩
  | .hbm, ⟨32, _⟩ => ⟨S65536x1x1, .i32⟩
  | .hbm, ⟨33, _⟩ => ⟨S1, .i32⟩
  | .hbm, ⟨34, _⟩ => ⟨S_, .i32⟩
  | .hbm, ⟨35, _⟩ => ⟨S65536x1x1, .i32⟩
  | .hbm, ⟨36, _⟩ => ⟨S65536x1x1, .i1⟩
  | .hbm, ⟨37, _⟩ => ⟨S1x1x1, .i32⟩
  | .hbm, ⟨38, _⟩ => ⟨S65536x1x1, .i32⟩
  | .hbm, ⟨39, _⟩ => ⟨S65536x1x1, .i1⟩
  | .hbm, ⟨40, _⟩ => ⟨S65536x1x1, .i1⟩
  | .hbm, ⟨41, _⟩ => ⟨S_, .i1⟩
  | .hbm, ⟨42, _⟩ => ⟨S65536x1, .i1⟩
  | .hbm, ⟨43, _⟩ => ⟨S65536x1, .f32⟩
  | .hbm, ⟨44, _⟩ => ⟨S_, .f32⟩
  | .hbm, ⟨45, _⟩ => ⟨S65536x1, .f32⟩
  | .hbm, ⟨46, _⟩ => ⟨S65536x1, .f32⟩
  | .hbm, ⟨47, _⟩ => ⟨S65536, .f32⟩
  | .hbm, ⟨48, _⟩ => ⟨S65536, .f32⟩
  | _, _ => ⟨S3x65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_cst : Ref sig .tc := ⟨.hbm, 44, rfl⟩
abbrev main_call1_v14 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩

abbrev nD : Nat := 1
abbrev τ : Topo := Topo.v7x

variable {F : FTy → Type} [FloatOps F]

class Facts₀ : Prop where
  reducesTo_S3x65536x1024_S3x65536_d2 : S3x65536x1024.ReducesTo [2] S3x65536
  h_S_ : 0 < S_.numel
  bcast_S_S3x65536 : S_.BroadcastsInDim S3x65536 (![] : Fin 0 → Fin S3x65536.rank)
  bcast_S3x65536_S3x65536x1_0_1 : S3x65536.BroadcastsInDim S3x65536x1 (![0, 1] : Fin 2 → Fin S3x65536x1.rank)
  bcast_S3x65536x1_S3x65536x1024_0_1_2 : S3x65536x1.BroadcastsInDim S3x65536x1024 (![0, 1, 2] : Fin 3 → Fin S3x65536x1024.rank)
  bcast_S_S3x65536x1024 : S_.BroadcastsInDim S3x65536x1024 (![] : Fin 0 → Fin S3x65536x1024.rank)
  reducesTo_S3x65536x1024_S65536x1024_d0 : S3x65536x1024.ReducesTo [0] S65536x1024
  bcast_S65536_S65536x1_0 : S65536.BroadcastsInDim S65536x1 (![0] : Fin 1 → Fin S65536x1.rank)
  bcast_S_S65536x1 : S_.BroadcastsInDim S65536x1 (![] : Fin 0 → Fin S65536x1.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  shapeCasts_S65536x1_S65536 : S65536x1.ShapeCasts S65536
  gather_S65536x1024_S65536x1x1_S65536x1_n_1_0_0_1_2_11_wf : GatherDims.WF S65536x1024 S65536x1x1 S65536x1 [] [1] [0] [1] [0] 2 ![1, 1]

variable [Facts₀]

def gather_S65536x1024_S65536x1x1_S65536x1_n_1_0_0_1_2_11 : GatherDims S65536x1024 S65536x1x1 S65536x1 where
  offsetDims := []
  collapsedSliceDims := [1]
  operandBatchingDims := [0]
  startIndicesBatchingDims := [0]
  startIndexMap := [1]
  indexVectorDim := 2
  sliceSizes := ![1, 1]
  wf := gather_S65536x1024_S65536x1x1_S65536x1_n_1_0_0_1_2_11_wf

class Facts : Prop extends Facts₀ where

variable [Facts]
-- ==== Proof.Body.lean ====
/-
  What the kernel body leaves in its two output blocks, as pure functions of its two input blocks.

  The body zero-fills the accumulator block, then for each of the three modalities `k` adds that modality's
  weighted log-softmax (computed from slab `k` of the staged logits block) to what the accumulator holds, and at
  the end reads the accumulator back to pick one entry per row. So with `acc 0` the zero block and
  `acc (k + 1) = step (slab k) (acc k)`, the first output block ends at `acc 3` and the second at the picking
  function of `acc 3` and the staged targets.
-/
import proofs.«407320_j18811956756525_3_alg».proof.Proof.Gen.KernelIdeal.Frame
import Idealize.ShloMosaic.Lib.Pipeline.Value
import Idealize.ShloMosaic.Lib.WholeRead

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.Sem

variable {F : FTy → Type} [FloatOps F]

/-! ## Zero offsets, however they are spelt -/

theorem hz2 : (![0, 0] : Fin S512x1024.rank → ℕ) = fun _ => 0 := by
  funext a; match a with | ⟨0, _⟩ => rfl | ⟨1, _⟩ => rfl
theorem hz1 : (![0] : Fin S512.rank → ℕ) = fun _ => 0 := by
  funext a; match a with | ⟨0, _⟩ => rfl
theorem hz2' : (![0, 0] : Fin S512x1.rank → ℕ) = fun _ => 0 := by
  funext a; match a with | ⟨0, _⟩ => rfl | ⟨1, _⟩ => rfl

/-! ## The accumulator, trip by trip -/

/-- Modality `k`'s slab of the staged logits block. -/
def slab (x0 : Vec F S3x512x1024 .f32) (k : Fin k0_t1_loop.trips) : Vec F S1x512x1024 .f32 :=
  View.ld x0 (Rect.unit (s := S3x512x1024) (k0_off1 k) S1x512x1024.size (k0_off1_inb k))

/-- The accumulator block before trip `k`: zero, then one modality's summand added per trip. -/
def acc (x0 : Vec F S3x512x1024 .f32) : ℕ → Vec F S512x1024 .f32
  | 0 => k0_pay1
  | k + 1 => if h : k < k0_t1_loop.trips then k0_pay2 (slab x0 ⟨k, h⟩) (acc x0 k) else acc x0 k

/-- The zero-fill's piece. -/
abbrev zeroPiece : View.Piece (Elt F) S512x1024 .f32 :=
  ⟨Rect.unit (s := S512x1024) ![0, 0] S512x1024.size inb_S512x1024_S512x1024_0_0, k0_pay1⟩

/-- One trip writes ONE piece, the whole block: the payload of the slab it loads and of the block as it finds it. -/
theorem tripL_eq (𝒱 : Variants) (bd : Option 𝒱.V) (c : Dev nD) (i : grid0.Coords) (arg1 : Memref sig .tc .vmem S3x512x1024 .f32) (harg1 : arg1.IsWhole) (arg2 : Memref sig .tc .vmem S512x1 .i32) (harg2 : arg2.IsWhole) (arg3 : Memref sig .tc .vmem S512x1024 .f32) (harg3 : arg3.IsWhole) (arg4 : Memref sig .tc .vmem S512 .f32) (harg4 : arg4.IsWhole)
    (X : BufTy.Contents (Elt F) arg1.view.ty) (k : Fin k0_t1_loop.trips) (f : BufTy.Contents (Elt F) arg3.view.ty) :
    tripL_k0_t1 (F := F) 𝒱 c bd i arg1 harg1 arg2 harg2 arg3 harg3 arg4 harg4 X k f
      = [⟨Rect.unit (s := S512x1024) ![0, 0] S512x1024.size inb_S512x1024_S512x1024_0_0,
          k0_pay2 (View.readAt (Elt F) arg1.view (Rect.unit (s := S3x512x1024) (k0_off1 k) S1x512x1024.size (k0_off1_inb k)).toLoadRect X)
            (View.readAt (Elt F) arg3.view (Rect.unit (s := S512x1024) ![0, 0] S512x1024.size inb_S512x1024_S512x1024_0_0).toLoadRect f)⟩] := by
  unfold tripL_k0_t1 trip_k0_t1
  dsimp only

/-- After `k` trips the pieces written so far, over the zero-fill, read back as the accumulator `acc k`. -/
theorem canon_pb (𝒱 : Variants) (bd : Option 𝒱.V) (c : Dev nD) (i : grid0.Coords) (arg1 : Memref sig .tc .vmem S3x512x1024 .f32) (harg1 : arg1.IsWhole) (arg2 : Memref sig .tc .vmem S512x1 .i32) (harg2 : arg2.IsWhole) (arg3 : Memref sig .tc .vmem S512x1024 .f32) (harg3 : arg3.IsWhole) (arg4 : Memref sig .tc .vmem S512 .f32) (harg4 : arg4.IsWhole) (x0 : Vec F S3x512x1024 .f32) (k : ℕ) (hk : k ≤ k0_t1_loop.trips) :
    View.canon (pb_k0_t1 (F := F) 𝒱 c bd i arg1 harg1 arg2 harg2 arg3 harg3 arg4 harg4 (harg1.unread x0)
        (arg3.view.writes (Elt F) arg3.view.junk [zeroPiece]) k ++ [zeroPiece]) = acc x0 k := by
  induction k with
  | zero =>
    rw [pb_k0_t1.eq_1, List.nil_append]
    exact View.canon_unit_zero hz2 _ _
  | succ k ih =>
    have h : k < k0_t1_loop.trips := hk
    have e := pb_k0_t1_succ (F := F) 𝒱 c bd i arg1 harg1 arg2 harg2 arg3 harg3 arg4 harg4 (harg1.unread x0)
      (arg3.view.writes (Elt F) arg3.view.junk [zeroPiece]) ⟨k, h⟩
    rw [show k + 1 = (⟨k, h⟩ : Fin k0_t1_loop.trips).val + 1 from rfl, e, tripL_eq, List.append_assoc, List.singleton_append,
      View.canon_cons_unit_zero hz2]
    show _ = acc x0 (k + 1)
    rw [acc, dif_pos h]
    congr 1
    · funext x; exact harg1.readAt_unread x0 _ x
    · rw [← View.writes_append, View.readAt_writes_junk_eq_canon, ih (Nat.le_of_succ_le hk)]
      exact View.ld_unit_zero hz2 _ _

/-! ## The two output blocks -/

/-- The accumulated block: what the body leaves in the first output's staging buffer. -/
theorem out2_eq (c : Dev nD) (i : grid0.Coords) (arg1 : Memref sig .tc .vmem S3x512x1024 .f32) (harg1 : arg1.IsWhole) (arg2 : Memref sig .tc .vmem S512x1 .i32) (harg2 : arg2.IsWhole) (arg3 : Memref sig .tc .vmem S512x1024 .f32) (harg3 : arg3.IsWhole) (arg4 : Memref sig .tc .vmem S512 .f32) (harg4 : arg4.IsWhole) (x0 : Vec F S3x512x1024 .f32) (x1 : Vec F S512x1 .i32) :
    out0_A_2 (F := F) c i arg1 harg1 arg2 harg2 arg3 harg3 arg4 harg4 x0 x1 = acc x0 k0_t1_loop.trips := by
  unfold out0_A_2
  rw [View.read_writes_eq_canon _ _ _ (cover0_A_2 c i arg1 harg1 arg2 harg2 arg3 harg3 arg4 harg4 x0 x1)]
  unfold kernelRun0_A
  dsimp only
  sl_unfold_words
  exact canon_pb Variants.none none c i arg1 harg1 arg2 harg2 arg3 harg3 arg4 harg4 x0 _ le_rfl

/-- The picked block: the picking function of the accumulated block and the staged targets. -/
theorem out3_eq (c : Dev nD) (i : grid0.Coords) (arg1 : Memref sig .tc .vmem S3x512x1024 .f32) (harg1 : arg1.IsWhole) (arg2 : Memref sig .tc .vmem S512x1 .i32) (harg2 : arg2.IsWhole) (arg3 : Memref sig .tc .vmem S512x1024 .f32) (harg3 : arg3.IsWhole) (arg4 : Memref sig .tc .vmem S512 .f32) (harg4 : arg4.IsWhole) (x0 : Vec F S3x512x1024 .f32) (x1 : Vec F S512x1 .i32) :
    out0_A_3 (F := F) c i arg1 harg1 arg2 harg2 arg3 harg3 arg4 harg4 x0 x1 = k0_pay3 (acc x0 k0_t1_loop.trips) x1 := by
  unfold out0_A_3
  rw [View.read_writes_eq_canon _ _ _ (cover0_A_3 c i arg1 harg1 arg2 harg2 arg3 harg3 arg4 harg4 x0 x1)]
  unfold kernelRun0_A
  dsimp only
  sl_unfold_words
  rw [View.canon_unit_zero hz1]
  congr 1
  · rw [View.readAt_writes_junk_eq_canon]
    have e := canon_pb (F := F) Variants.none none c i arg1 harg1 arg2 harg2 arg3 harg3 arg4 harg4 x0 _ (le_refl k0_t1_loop.trips)
    rw [e]
    exact View.ld_unit_zero hz2 _ _
  · funext x
    rw [harg2.readAt_unread]
    exact congrFun (View.ld_unit_zero hz2' _ x1) x

end Cert.KernelIdeal.Body

end
-- ==== Proof.Spec.lean ====
/-
  The mathematics both programs compute, stated once over extended reals.

  For one row `x : Fin 1024 → EReal` of logits: `rowMax x` is the fold of `max` from −∞ over the row,
  `sh x c = x c − rowMax x` the shifted logit, `se x = ∑ c, exp (sh x c)` the normaliser and
  `lp x c = sh x c − log (se x)` the log-softmax. The kernel weighs `lp` by the quotient
  `exp (sh x c) / se x` (`term`), the reference by `exp (lp x c · 1)` (`termR`). On a row of REAL
  numbers the normaliser is a real `s ≥ 1 > 0`, so `exp (a − log s) = exp a / s` and the two summands agree
  (`termR_eq_term`); at an infinite entry they need not, which is where finiteness of the inputs is used.
-/
import Idealize.ShloMosaic.PureOps.Ideal
import Idealize.ShloMosaic.PureOps.Ideal.Laws
import Idealize.ShloMosaic.Lib.ValueIdx

noncomputable section

namespace Cert.Spec

open Idealize.ShloMosaic

/-! ## The three float words the programs spell -/

theorem ninf_eq : Ideal.ofBits .f32 0xFF800000#32 = ⊥ := by simp [Ideal.ofBits, Ideal.ieee]
theorem one_eq : Ideal.ofBits .f32 0x3F800000#32 = 1 := by simp [Ideal.ofBits, Ideal.ieee, -EReal.coe_mul]; norm_num
theorem zero_eq : Ideal.ofBits .f32 0x00000000#32 = 0 := by simp [Ideal.ofBits, Ideal.ieee]

/-! ## One row

Stated over any finite index type `ι` (the programs' rows are `Fin 1024`), so that no proof step looks inside a
concrete index set. -/

section Row
variable {ι : Type} [Fintype ι]

/-- A row's maximum: `max` folded over the row from −∞. -/
def rowMax (x : ι → EReal) : EReal :=
  (Finset.univ : Finset ι).fold max (Ideal.ofBits .f32 0xFF800000#32) x

/-- The shifted logit. -/
def sh (x : ι → EReal) (c : ι) : EReal := x c - rowMax x

/-- The softmax normaliser of the shifted row. -/
def se (x : ι → EReal) : EReal := ∑ c : ι, Ideal.exp (sh x c)

/-- The log-softmax. -/
def lp (x : ι → EReal) (c : ι) : EReal := sh x c - Ideal.log (se x)

/-- The kernel's summand: softmax as a quotient, times log-softmax. -/
def term (x : ι → EReal) (c : ι) : EReal := Ideal.div (Ideal.exp (sh x c)) (se x) * lp x c

/-- The reference's summand: softmax as `exp (log-softmax · 1)`, times log-softmax. -/
def termR (x : ι → EReal) (c : ι) : EReal :=
  Ideal.exp (lp x c * Ideal.ofBits .f32 0x3F800000#32) * lp x c

/-- The coercion of reals commutes with a finite sum. -/
theorem coe_sum {κ : Type} (s : Finset κ) (f : κ → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a nonempty row of reals is a real. -/
theorem rowMax_real [Nonempty ι] (f : ι → ℝ) : ∃ M : ℝ, rowMax (fun c => (f c : EReal)) = (M : EReal) := by
  have hlt : rowMax (fun c => (f c : EReal)) < ⊤ := by
    unfold rowMax
    rw [Finset.fold_max_lt]
    exact ⟨by rw [ninf_eq]; exact bot_lt_top, fun c _ => EReal.coe_lt_top _⟩
  have hgt : ⊥ < rowMax (fun c => (f c : EReal)) := by
    obtain ⟨c₀⟩ := ‹Nonempty ι›
    refine lt_of_lt_of_le (EReal.bot_lt_coe (f c₀)) ?_
    unfold rowMax
    rw [Finset.le_fold_max]
    exact Or.inr ⟨c₀, Finset.mem_univ _, le_rfl⟩
  exact ⟨(rowMax fun c => (f c : EReal)).toReal, (EReal.coe_toReal hlt.ne hgt.ne').symm⟩

/-- The scalar law: for reals `a`, `s` with `s > 0`, `exp ((a − log s) · 1) = exp a / s` on the extended reals. -/
theorem exp_sub_log (a s : ℝ) (hs : 0 < s) :
    Ideal.exp (((a - Real.log s : ℝ) : EReal) * Ideal.ofBits .f32 0x3F800000#32)
      = Ideal.div (Ideal.exp ((a : ℝ) : EReal)) ((s : ℝ) : EReal) := by
  rw [one_eq, mul_one, Ideal.exp_coe, Ideal.exp_coe, Ideal.div_coe hs.ne', ← EReal.coe_mul]
  congr 1
  rw [Real.exp_sub, Real.exp_log hs, one_div, div_eq_mul_inv]

/-- ON A ROW OF REALS the two summands agree: with `a = x c − M` and `s = ∑ exp (x c' − M) > 0`,
    `exp ((a − log s) · 1) = exp a / s`. -/
theorem termR_eq_term [Nonempty ι] (x : ι → EReal) (hx : ∀ c, ∃ r : ℝ, x c = (r : EReal)) (c : ι) :
    termR x c = term x c := by
  choose f hf using hx
  obtain rfl : x = fun c => (f c : EReal) := funext hf
  obtain ⟨M, hM⟩ := rowMax_real f
  have hsh : ∀ c', sh (fun c => (f c : EReal)) c' = ((f c' - M : ℝ) : EReal) := fun c' => by
    unfold sh; rw [hM, EReal.coe_sub]
  obtain ⟨s, hs, hse⟩ : ∃ s : ℝ, 0 < s ∧ se (fun c => (f c : EReal)) = (s : EReal) :=
    ⟨∑ c' : ι, Real.exp (f c' - M), Finset.sum_pos (fun c' _ => Real.exp_pos _) Finset.univ_nonempty, by
      unfold se; rw [coe_sum]; exact Finset.sum_congr rfl fun c' _ => by rw [hsh, Ideal.exp_coe]⟩
  have hlog : Ideal.log (se fun c => (f c : EReal)) = ((Real.log s : ℝ) : EReal) := by
    rw [hse, Ideal.log_coe, if_neg (not_le.mpr hs)]
  have hlp : lp (fun c => (f c : EReal)) c = ((f c - M - Real.log s : ℝ) : EReal) := by
    unfold lp; rw [hsh, hlog, ← EReal.coe_sub]
  unfold termR term
  rw [hlp, hsh, hse, exp_sub_log _ _ hs]

end Row

/-! ## The three modalities -/

/-- The sum over the three modalities as the kernel accumulates it: from the zero word, one summand after another. -/
def sum3 (T : Fin 3 → EReal) : EReal := Ideal.ofBits .f32 0x00000000#32 + T 0 + T 1 + T 2

/-- …which is the reference's `0 + ∑`. -/
theorem zero_add_sum3 (T : Fin 3 → EReal) : Ideal.ofBits .f32 0x00000000#32 + ∑ k : Fin 3, T k = sum3 T := by
  unfold sum3; rw [Fin.sum_univ_three, ← add_assoc, ← add_assoc]

/-! ## The arrays

`L` is the logits array `[3, 65536, 1024]`, `tg` the targets `[65536]` (32-bit words). The first result is, at
`(b, c)`, the sum over the three modalities of the summand of row `b` of that modality at column `c`; the second is,
at `b`, minus the first result at the column the target names. -/

abbrev SL : Shape := ⟨3, ![3, 65536, 1024]⟩
abbrev SS : Shape := ⟨2, ![65536, 1024]⟩
abbrev ST : Shape := ⟨1, ![65536]⟩

/-- Row `b` of modality `m`. -/
def row (L : SL.Idx → EReal) (m : Fin 3) (b : Fin 65536) : Fin 1024 → EReal := fun c => L (ValueIdx.ix3 m b c)

/-- The summed weighted log-softmax. -/
def G2 (L : SL.Idx → EReal) : SS.Idx → EReal := fun j => sum3 fun m => term (row L m (j 0)) (j 1)

/-- The kernel's pick of one entry of a row by a one-hot mask: zero minus the sum over the row of the entries the
    word `w` names (the column `c` is named when `w` is the word of `c`). -/
def pickRow (S : Fin 1024 → EReal) (w : BitVec 32) : EReal :=
  Ideal.ofBits .f32 0x00000000#32
    - ∑ c : Fin 1024, if w = BitVec.ofNat 32 c.val then S c else Ideal.ofBits .f32 0x00000000#32

/-- A word below 1024 names exactly one column, so the masked sum is that entry and the pick its negation. -/
theorem pickRow_eq (S : Fin 1024 → EReal) (w : BitVec 32) (hw : w.toNat < 1024) :
    pickRow S w = -(S ⟨w.toNat, hw⟩) := by
  unfold pickRow
  rw [zero_eq, zero_sub]
  congr 1
  rw [Finset.sum_eq_single (⟨w.toNat, hw⟩ : Fin 1024)]
  · rw [if_pos]
    exact BitVec.eq_of_toNat_eq (by rw [BitVec.toNat_ofNat]; exact (Nat.mod_eq_of_lt w.isLt).symm)
  · intro c _ hc
    rw [if_neg]
    intro h
    apply hc
    apply Fin.ext
    have e := congrArg BitVec.toNat h
    rw [BitVec.toNat_ofNat, Nat.mod_eq_of_lt (by have := c.isLt; omega)] at e
    exact e.symm
  · intro h; exact absurd (Finset.mem_univ _) h

end Cert.Spec

end
-- ==== Proof.Pay.lean ====
/-
  The kernel body's three payloads read at an index, over extended reals.

  The first payload is the zero word everywhere. The second, at `(r, c)`, is the accumulator at `(r, c)` plus the
  summand `term` of row `r` of the slab at column `c`: the row's maximum is the fold of `max` from −∞ over the row, the
  shifted row is the row minus that maximum, the normaliser is the sum over the row of the exponentials of the shifted
  row, and the summand is the quotient exponential / normaliser times shifted − log normaliser. The third, at `r`, is
  the zero word minus the sum over row `r` of the entries whose column's word equals the target word of the row, the
  zero word elsewhere: `pickRow` of the row at that word.

  Each operation that is not pointwise — a reshape, a column broadcast along the row, a reduction along the row, the
  column counter — is read once at explicit coordinates; the pointwise ones pass the index through by definition.
-/
import proofs.«407320_j18811956756525_3_alg».proof.Proof.Gen.KernelIdeal.Skeleton
import proofs.«407320_j18811956756525_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-! ## The non-pointwise operations at explicit coordinates -/

/-- The source index over row `r` with column `k` inserted is `(r, k)`. -/
theorem lift_row (r : Fin 512) (k : Fin 1024) :
    reduces_S512x1024_S512.lift (ix1 r) k = ix2 r k := by
  funext a
  match a with
  | ⟨0, _⟩ => exact Fin.ext rfl
  | ⟨1, _⟩ => exact Fin.ext rfl

/-- A row's maximum, taken from −∞ along axis 1, is the row's `rowMax`. -/
theorem rowmax_apply (x : FVec Ideal S512x1024 .f32) (r : Fin 512) :
    multiReduction (F := Ideal) .maximumf [1] S512 x 0xFF800000#32 reduces_S512x1024_S512 (.inl rfl) rfl (ix1 r)
      = Cert.Spec.rowMax (fun c : Fin 1024 => x (ix2 r c)) := by
  refine (Ideal.multiReduction_maximumf_single x _ reduces_S512x1024_S512 (.inl rfl) rfl (ix1 r)).trans ?_
  unfold Cert.Spec.rowMax
  have e : (x ∘ reduces_S512x1024_S512.lift (ix1 r)) = fun c : Fin 1024 => x (ix2 r c) :=
    funext fun c => congrArg x (lift_row r c)
  rw [e]
  rfl

/-- A row's sum along axis 1 is the sum over the row's columns. -/
theorem rowsum_apply (x : FVec Ideal S512x1024 .f32) (r : Fin 512) :
    multiReduction (F := Ideal) .add [1] S512 x 0x00000000#32 reduces_S512x1024_S512 (.inl rfl) rfl (ix1 r)
      = ∑ c : Fin 1024, x (ix2 r c) := by
  refine (Ideal.multiReduction_add_single x _ reduces_S512x1024_S512 (.inl rfl) rfl (ix1 r)).trans ?_
  exact Finset.sum_congr rfl fun c _ => congrArg x (lift_row r c)

/-- A `[512]` vector viewed as a `[512, 1]` column reads, at `(r, u)`, the vector at `r`. -/
theorem col_apply {α : Type} (y : S512.Idx → α) (r : Fin 512) (u : Fin 1) :
    shapeCast S512x1 y shapeCasts_S512_S512x1 (ix2 r u) = y (ix1 r) :=
  shapeCast_apply y shapeCasts_S512_S512x1 _ _ (by
    have hu : u.val = 0 := by omega
    rw [Shape.rowMajor_val_two, Shape.rowMajor_val_one]
    show r.val = r.val * 1 + u.val
    rw [hu, Nat.mul_one, Nat.add_zero])

/-- A `[512, 1]` column broadcast along the row reads, at `(r, c)`, the column at `(r, 0)`. -/
theorem bcol_apply {α : Type} (y : S512x1.Idx → α) (r : Fin 512) (c : Fin 1024) :
    broadcastTo S512x1024 y broadcasts_S512x1_S512x1024 (ix2 r c) = y (ix2 r (0 : Fin 1)) := by
  refine broadcastTo_apply y broadcasts_S512x1_S512x1024 (ix2 r c) (ix2 r (0 : Fin 1)) fun ax => ?_
  match ax with
  | ⟨0, _⟩ => rfl
  | ⟨1, _⟩ => rfl

/-- The `[1, 512, 1024]` slab viewed `[512, 1024]` reads, at `(r, c)`, the slab at `(0, r, c)`. -/
theorem slab_apply (v : Vec Ideal S1x512x1024 .f32) (r : Fin 512) (c : Fin 1024) :
    shapeCast S512x1024 v shapeCasts_S1x512x1024_S512x1024 (ix2 r c) = v (ix3 (0 : Fin 1) r c) :=
  shapeCast_1ab_ab_apply v shapeCasts_S1x512x1024_S512x1024 r c

/-! ## Pointwise operations the index passes through -/

/-- The exponential of a vector at an index is the exponential of the element. -/
theorem exp_apply {s : Shape} {φ : FTy} (a : FVec Ideal s φ) (i : s.Idx) : exp a i = Ideal.exp (a i) := rfl
/-- The logarithm of a vector at an index is the logarithm of the element. -/
theorem log_apply {s : Shape} {φ : FTy} (a : FVec Ideal s φ) (i : s.Idx) : log a i = Ideal.log (a i) := rfl
/-- An integer comparison at an index compares the elements. -/
theorem cmpi_apply {s : Shape} {w : Nat} (p : CmpIPredicate) (a b : IVec s w) (i : s.Idx) :
    cmpi p a b i = IntOp.cmpi p (a i) (b i) := rfl

/-- The equality comparison of two words gives the bit 1 exactly when they are equal. -/
theorem cmpi_eq_one_iff (a b : BitVec 32) : IntOp.cmpi .eq a b = 1#1 ↔ a = b := by
  unfold IntOp.cmpi
  by_cases h : a = b
  · subst h; simp
  · have hb : (a == b) = false := by simpa using h
    simp only [hb]
    exact iff_of_false (by decide) h

/-- The iota along axis 1 reads, at `(r, c)`, the word of `c`. -/
theorem iota_apply (r : Fin 512) (c : Fin 1024) :
    iota .tc S512x1024 32 [1] iota_S512x1024_d1_w32 (ix2 r c) = BitVec.ofNat 32 c.val :=
  iota_single_apply .tc S512x1024 32 1 iota_S512x1024_d1_w32 (ix2 r c)

/-! ## The softmax-weighted log-softmax of a `[512, 1024]` array, row by row -/

/-- The shifted array: each row minus its maximum, at `(r, c)`. -/
theorem shifted_apply (x : FVec Ideal S512x1024 .f32) (r : Fin 512) (c : Fin 1024) :
    subf x (broadcastTo S512x1024
        (shapeCast S512x1 (multiReduction (F := Ideal) .maximumf [1] S512 x 0xFF800000#32 reduces_S512x1024_S512 (.inl rfl) rfl)
          shapeCasts_S512_S512x1) broadcasts_S512x1_S512x1024) (ix2 r c)
      = Cert.Spec.sh (fun c' : Fin 1024 => x (ix2 r c')) c := by
  rw [subf_apply, bcol_apply, col_apply, rowmax_apply]
  rfl

/-- The normaliser: the row sum of the exponentials of a shifted array `s`, once `s` is read as `sh` of the row. -/
theorem norm_apply (x s : FVec Ideal S512x1024 .f32) (r : Fin 512)
    (hs : ∀ c : Fin 1024, s (ix2 r c) = Cert.Spec.sh (fun c' : Fin 1024 => x (ix2 r c')) c) :
    multiReduction (F := Ideal) .add [1] S512 (exp s) 0x00000000#32 reduces_S512x1024_S512 (.inl rfl) rfl (ix1 r)
      = Cert.Spec.se (fun c' : Fin 1024 => x (ix2 r c')) := by
  rw [rowsum_apply]
  unfold Cert.Spec.se
  exact Finset.sum_congr rfl fun c _ => by rw [exp_apply, hs c]

/-- The whole step on a `[512, 1024]` array `x` and an accumulator `y`, at `(r, c)`. -/
theorem core_apply (x y s : FVec Ideal S512x1024 .f32) (r : Fin 512) (c : Fin 1024)
    (hs : ∀ c : Fin 1024, s (ix2 r c) = Cert.Spec.sh (fun c' : Fin 1024 => x (ix2 r c')) c) :
    addf y (mulf
        (divf (exp s) (broadcastTo S512x1024
          (shapeCast S512x1 (multiReduction (F := Ideal) .add [1] S512 (exp s) 0x00000000#32 reduces_S512x1024_S512 (.inl rfl) rfl)
            shapeCasts_S512_S512x1) broadcasts_S512x1_S512x1024))
        (subf s (broadcastTo S512x1024
          (log (shapeCast S512x1 (multiReduction (F := Ideal) .add [1] S512 (exp s) 0x00000000#32 reduces_S512x1024_S512 (.inl rfl) rfl)
            shapeCasts_S512_S512x1)) broadcasts_S512x1_S512x1024))) (ix2 r c)
      = y (ix2 r c) + Cert.Spec.term (fun c' : Fin 1024 => x (ix2 r c')) c := by
  rw [addf_apply, mulf_apply, divf_apply, subf_apply, exp_apply, bcol_apply, bcol_apply, log_apply, col_apply,
    norm_apply x s r hs, hs c]
  rfl

/-! ## The three payloads -/

theorem zero_apply (j : S512x1024.Idx) : k0_pay1 (F := Ideal) j = Ideal.ofBits .f32 0x00000000#32 := rfl

theorem step_apply (v19 : Vec Ideal S1x512x1024 .f32) (v33 : Vec Ideal S512x1024 .f32) (r : Fin 512) (c : Fin 1024) :
    k0_pay2 (F := Ideal) v19 v33 (ix2 r c)
      = v33 (ix2 r c) + Cert.Spec.term (fun c' : Fin 1024 => v19 (ix3 0 r c')) c := by
  have hrow : (fun c' : Fin 1024 =>
      (shapeCast S512x1024 v19 shapeCasts_S1x512x1024_S512x1024 : FVec Ideal S512x1024 .f32) (ix2 r c'))
        = fun c' : Fin 1024 => v19 (ix3 0 r c') := funext fun c' => slab_apply v19 r c'
  unfold k0_pay2
  rw [shapeCast_self]
  refine (core_apply (shapeCast S512x1024 v19 shapeCasts_S1x512x1024_S512x1024) v33 _ r c
    (fun c' => shifted_apply (shapeCast S512x1024 v19 shapeCasts_S1x512x1024_S512x1024) r c')).trans ?_
  rw [hrow]

theorem pick_apply (v3 : Vec Ideal S512x1024 .f32) (v5 : Vec Ideal S512x1 .i32) (r : Fin 512) :
    k0_pay3 (F := Ideal) v3 v5 (ix1 r)
      = Cert.Spec.pickRow (fun c : Fin 1024 => v3 (ix2 r c)) (v5 (ix2 r 0)) := by
  unfold k0_pay3
  rw [shapeCast_self, shapeCast_self, subf_apply, broadcast_apply, rowsum_apply]
  unfold Cert.Spec.pickRow
  refine congrArg (fun z => Ideal.ofBits .f32 0x00000000#32 - z) (Finset.sum_congr rfl fun c _ => ?_)
  rw [select_apply, cmpi_apply, bcol_apply, iota_apply, broadcast_apply]
  unfold Scalar.select
  exact if_congr (cmpi_eq_one_iff _ _) rfl rfl

end Cert.KernelIdeal.Pay

end
-- ==== Proof.Pick.lean ====
/-
  The second result. The kernel clamps each target word into [0, 1023] (signed) before it compares it with the
  column numbers; on a word that already lies in that range the clamp does nothing, the one-hot sum picks exactly the
  column the word names, and the result is minus that entry of the first result.
-/
import proofs.«407320_j18811956756525_3_alg».proof.Proof.Spec
import Idealize.ShloMosaic.Lib.StableHlo.Predicate

noncomputable section

namespace Cert.Spec

open Idealize.ShloMosaic

/-- The clamp of a word into [0, 1023], signed: first from below by 0, then from above by 1023. -/
def clipw (w : BitVec 32) : BitVec 32 := IntOp.minsi 1023#32 (IntOp.maxsi 0#32 w)

/-- A word below 1024 is its own clamp. -/
theorem clipw_eq (w : BitVec 32) (hw : w.toNat < 1024) : clipw w = w := by
  have hi : w.toInt = (w.toNat : Int) := StableHlo.Predicate.toInt_eq_toNat_of_lt (by omega)
  have h1 : w.slt 0#32 = false := by
    simp only [BitVec.slt, hi, BitVec.toInt_zero, decide_eq_false_iff_not, not_lt]; omega
  have h0 : (1023#32 : BitVec 32).toInt = 1023 := by decide
  have h2 : (1023#32 : BitVec 32).slt w = false := by
    simp only [BitVec.slt, hi, h0, decide_eq_false_iff_not, not_lt]; omega
  unfold clipw IntOp.minsi IntOp.maxsi
  rw [h1]
  simp only [Bool.false_eq_true, if_false]
  rw [h2]
  simp only [Bool.false_eq_true, if_false]

/-- The second result: at row `b`, the pick, by the clamped target word, of row `b` of the first result. -/
def G3 (L : SL.Idx → EReal) (tg : ST.Idx → BitVec 32) : ST.Idx → EReal :=
  fun j => pickRow (fun c => G2 L (ValueIdx.ix2 (j 0) c)) (clipw (tg j))

/-- Where the target word is below 1024 the second result is minus the first result at the column the word names. -/
theorem G3_eq (L : SL.Idx → EReal) (tg : ST.Idx → BitVec 32) (j : ST.Idx) (hw : (tg j).toNat < 1024) :
    G3 L tg j = -(G2 L (ValueIdx.ix2 (j 0) ⟨(tg j).toNat, hw⟩)) := by
  unfold G3
  rw [clipw_eq _ hw, pickRow_eq _ _ hw]

end Cert.Spec

end
-- ==== Proof.Blocks.lean ====
/-
  Where each block sits in its array. The grid has 128 points; at point `t` the logits window stages rows
  `512·t … 512·t + 511` of all three modalities, the target window the same rows of the clamped targets (a column),
  and the two output windows write back the same rows of the two results. So entry `(k, r, c)` of the staged logits
  block is entry `(k, 512·t + r, c)` of the logits, and an index of a result array lies in the block of the point
  `b / 512` where `b` is its row. The clamped targets are what @main computes before the region: the targets
  clamped from below by 0 and from above by 1023, laid out as a column.
-/
import proofs.«407320_j18811956756525_3_alg».proof.Proof.Gen.KernelIdeal.Value
import proofs.«407320_j18811956756525_3_alg».proof.Proof.Pick
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- The grid has 128 points. -/
theorem lt_128 (t : Fin cfg0.N) : t.val < 128 := by
  exact lt_of_lt_of_eq t.isLt (show cfg0.N = 128 from N_0)

/-- The printed index maps, decided over the grid: every window's block index along the row axis is the point's number,
    and zero along every other axis. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = t.val :=
  (by decide +kernel : ∀ t : Fin grid0.N, _)

/-- The row of the array that row `r` of point `t`'s block is. -/
abbrev rowOf (t : Fin cfg0.N) (r : Fin 512) : Fin 65536 := ⟨512 * t.val + r.val, by have := lt_128 t; have := r.isLt; omega⟩

/-- Entry `(k, r, c)` of the staged logits block at point `t` is entry `(k, 512·t + r, c)` of the logits. -/
theorem iblk0_apply (c : Dev nD) (t : Fin cfg0.N) (k : Fin 3) (r : Fin 512) (cc : Fin 1024) :
    (iblk m c 0 t : Vec F S3x512x1024 .f32) (ix3 k r cc)
      = (m ((c : Thread nD τ).loc main_arg0) : S3x65536x1024.Idx → Elt F .f32) (ix3 k (rowOf t r) cc) := by
  obtain ⟨e0, e1, e2, -⟩ := idx_facts t
  unfold iblk
  rw [View.read_apply]
  show V m c main_arg0 _ = _
  rw [V_main_arg0]
  congr 1
  funext a
  apply Fin.ext
  match a with
  | ⟨0, _⟩ => show win0_0.index t (0 : Fin 3) * 3 + 1 * k.val = k.val; rw [e0]; omega
  | ⟨1, _⟩ => show win0_0.index t (1 : Fin 3) * 512 + 1 * r.val = 512 * t.val + r.val; rw [e1]; omega
  | ⟨2, _⟩ => show win0_0.index t (2 : Fin 3) * 1024 + 1 * cc.val = cc.val; rw [e2]; omega

/-- The array the target window stages: @main's clamp of the targets, as a column. -/
theorem V_targets (c : Dev nD) (b : Fin 65536) :
    (V m c main_v1 : S65536x1.Idx → BitVec 32) (ix2 b 0)
      = Cert.Spec.clipw ((m ((c : Thread nD τ).loc main_arg1) : S65536.Idx → BitVec 32) (ix1 b)) := by
  have e : (V m c main_v1 : S65536x1.Idx → BitVec 32)
      = shapeCast S65536x1 (minsi (broadcastInDim S65536 ![] bcast_S_S65536 (constantI S_ 32 1023#32))
          (maxsi (broadcastInDim S65536 ![] bcast_S_S65536 (constantI S_ 32 0#32))
            (m ((c : Thread nD τ).loc main_arg1) : S65536.Idx → BitVec 32))) shapeCasts_S65536_S65536x1 := by
    dsimp only [V]
    simp only [hostOps0, hostOps0_1, hostOps0_2, List.flatten_cons, List.flatten_nil, List.append_nil, List.cons_append,
      List.nil_append]
    after_results
    rfl
  rw [e, shapeCast_apply _ _ (ix2 b 0) (ix1 b) (by rw [Shape.rowMajor_val_one, Shape.rowMajor_val_two]; show b.val = b.val * 1 + 0; omega)]
  rfl

/-- Entry `(r, 0)` of the staged target block at point `t` is the clamped target of row `512·t + r`. -/
theorem iblk1_apply (c : Dev nD) (t : Fin cfg0.N) (r : Fin 512) :
    (iblk m c 1 t : Vec F S512x1 .i32) (ix2 r 0)
      = Cert.Spec.clipw ((m ((c : Thread nD τ).loc main_arg1) : S65536.Idx → BitVec 32) (ix1 (rowOf t r))) := by
  obtain ⟨-, -, -, e3, e4, -⟩ := idx_facts t
  rw [← V_targets m c (rowOf t r)]
  unfold iblk
  rw [View.read_apply]
  show V m c main_v1 _ = V m c main_v1 _
  congr 1
  funext a
  apply Fin.ext
  match a with
  | ⟨0, _⟩ => show win0_1.index t (0 : Fin 2) * 512 + 1 * r.val = 512 * t.val + r.val; rw [e3]; omega
  | ⟨1, _⟩ => show win0_1.index t (1 : Fin 2) * 1 + 1 * 0 = 0; rw [e4]

/-! ## The output windows' blocks -/

/-- An index of the first result lies in point `t`'s block iff each coordinate is in the block's range on its axis. -/
theorem mem_blk2 (t : Fin cfg0.N) (i : S65536x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v2_0).slice (win0_2.rect t)).set ↔ _
  rw [View.set_slice_whole, Rect.mem_set_unit]
  exact Iff.rfl

/-- Likewise for the second result. -/
theorem mem_blk3 (t : Fin cfg0.N) (i : S65536.Idx) :
    i ∈ ((cfg0.win 3).blk t).view.set ↔ ∀ a : Fin 1, win0_3.index t a * S512.size a ≤ (i a).val ∧ (i a).val < win0_3.index t a * S512.size a + S512.size a := by
  show i ∈ ((View.whole main_v2_1).slice (win0_3.rect t)).set ↔ _
  rw [View.set_slice_whole, Rect.mem_set_unit]
  exact Iff.rfl

/-- The point whose blocks hold row `b`. -/
abbrev pointOf (b : Fin 65536) : Fin cfg0.N := ⟨b.val / 512, by rw [show cfg0.N = 128 from N_0]; have := b.isLt; omega⟩

/-- Every index of the first result is in the block of its row's point, which writes back. -/
theorem cover2 (i : S65536x1024.Idx) : ∃ t : Fin cfg0.N, (cfg0.win 2).flush t = true ∧ i ∈ ((cfg0.win 2).blk t).view.set := by
  refine ⟨pointOf (i 0), flush0_2 _, ?_⟩
  obtain ⟨-, -, -, -, -, e5, e6, -⟩ := idx_facts (pointOf (i 0))
  rw [mem_blk2]
  intro a
  have h0 : (i 0).val < 65536 := (i 0).isLt
  have h1 : (i 1).val < 1024 := (i 1).isLt
  match a with
  | ⟨0, _⟩ => show win0_2.index (pointOf (i 0)) (0 : Fin 2) * 512 ≤ (i 0).val ∧ (i 0).val < win0_2.index (pointOf (i 0)) (0 : Fin 2) * 512 + 512; rw [e5]; show (i 0).val / 512 * 512 ≤ _ ∧ _ < (i 0).val / 512 * 512 + 512; omega
  | ⟨1, _⟩ => show win0_2.index (pointOf (i 0)) (1 : Fin 2) * 1024 ≤ (i 1).val ∧ (i 1).val < win0_2.index (pointOf (i 0)) (1 : Fin 2) * 1024 + 1024; rw [e6]; omega

/-- Every index of the second result is in the block of its row's point, which writes back. -/
theorem cover3 (i : S65536.Idx) : ∃ t : Fin cfg0.N, (cfg0.win 3).flush t = true ∧ i ∈ ((cfg0.win 3).blk t).view.set := by
  refine ⟨pointOf (i 0), flush0_3 _, ?_⟩
  obtain ⟨-, -, -, -, -, -, -, e7⟩ := idx_facts (pointOf (i 0))
  rw [mem_blk3]
  intro a
  have h0 : (i 0).val < 65536 := (i 0).isLt
  match a with
  | ⟨0, _⟩ => show win0_3.index (pointOf (i 0)) (0 : Fin 1) * 512 ≤ (i 0).val ∧ (i 0).val < win0_3.index (pointOf (i 0)) (0 : Fin 1) * 512 + 512; rw [e7]; show (i 0).val / 512 * 512 ≤ _ ∧ _ < (i 0).val / 512 * 512 + 512; omega

/-- The array index that entry `(r, c)` of point `t`'s block of the first result is. -/
theorem emb2 (t : Fin cfg0.N) (r : Fin 512) (cc : Fin 1024) :
    ((cfg0.win 2).blk t).view.emb (ix2 r cc) = (ix2 (rowOf t r) cc : S65536x1024.Idx) := by
  obtain ⟨-, -, -, -, -, e5, e6, -⟩ := idx_facts t
  funext a
  apply Fin.ext
  match a with
  | ⟨0, _⟩ => show win0_2.index t (0 : Fin 2) * 512 + 1 * r.val = 512 * t.val + r.val; rw [e5]; omega
  | ⟨1, _⟩ => show win0_2.index t (1 : Fin 2) * 1024 + 1 * cc.val = cc.val; rw [e6]; omega

/-- The array index that entry `r` of point `t`'s block of the second result is. -/
theorem emb3 (t : Fin cfg0.N) (r : Fin 512) :
    ((cfg0.win 3).blk t).view.emb (ix1 r) = (ix1 (rowOf t r) : S65536.Idx) := by
  obtain ⟨-, -, -, -, -, -, -, e7⟩ := idx_facts t
  funext a
  apply Fin.ext
  match a with
  | ⟨0, _⟩ => show win0_3.index t (0 : Fin 1) * 512 + 1 * r.val = 512 * t.val + r.val; rw [e7]; omega

/-! ## A block function written back through an output window

Stated for ANY block function `X` that agrees pointwise with a whole-array function `G` on the rows the point
covers: what the window writes back of `X` is the point's block of `G`. -/

theorem blk2_eq (t : Fin cfg0.N) (X : Vec F S512x1024 .f32) (G : S65536x1024.Idx → Elt F .f32)
    (h : ∀ (r : Fin 512) (cc : Fin 1024), X (ix2 r cc) = G (ix2 (rowOf t r) cc)) :
    (cfg0.win 2).cut (grid0.coords t) X = ((cfg0.win 2).blk t).view.read (Elt F) G := by
  refine funext fun (j : S512x1024.Idx) => ?_
  obtain ⟨r, cc, rfl⟩ : ∃ (r : Fin 512) (cc : Fin 1024), j = ix2 r cc := ⟨j 0, j 1, eq_ix2 j⟩
  show X (ix2 r cc) = G (((cfg0.win 2).blk t).view.emb (ix2 r cc))
  rw [emb2, h]

theorem blk3_eq (t : Fin cfg0.N) (X : Vec F S512 .f32) (G : S65536.Idx → Elt F .f32)
    (h : ∀ r : Fin 512, X (ix1 r) = G (ix1 (rowOf t r))) :
    (cfg0.win 3).cut (grid0.coords t) X = ((cfg0.win 3).blk t).view.read (Elt F) G := by
  refine funext fun (j : S512.Idx) => ?_
  obtain ⟨r, rfl⟩ : ∃ r : Fin 512, j = ix1 r := ⟨j 0, eq_ix1 j⟩
  show X (ix1 r) = G (((cfg0.win 3).blk t).view.emb (ix1 r))
  rw [emb3, h]

/-- The two staged input blocks at point `t`, named at their literal types. -/
abbrev xblk (c : Dev nD) (t : Fin cfg0.N) : Vec F S3x512x1024 .f32 := iblk m c 0 t
abbrev tblk (c : Dev nD) (t : Fin cfg0.N) : Vec F S512x1 .i32 := iblk m c 1 t

end Cert.KernelIdeal.Blocks

end
-- ==== Proof.KernelValue.lean ====
/-
  The idealized kernel's two result arrays as functions of its argument arrays.

  At a grid point the accumulator block, after the three trips, holds at `(r, c)` the sum over the three modalities of
  the summand of row `r` of that modality's slab; the slabs are rows `512·t + r` of the logits, so what the point
  writes back is its block of `G2` of the logits, and the picked block its block of `G3` of the logits and targets.
  The 128 points' blocks tile both result arrays, so after the run the arrays ARE `G2` and `G3`.
-/
import proofs.«407320_j18811956756525_3_alg».proof.Proof.Body
import proofs.«407320_j18811956756525_3_alg».proof.Proof.Pay
import proofs.«407320_j18811956756525_3_alg».proof.Proof.Blocks

set_option maxRecDepth 16384

noncomputable section

namespace Cert.KernelIdeal.KV

open Cert.KernelIdeal Cert.KernelIdeal.Gen Cert.KernelIdeal.Value Cert.KernelIdeal.Body Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The logits and the targets as launched. -/
abbrev Lg (c : Dev nD) : S3x65536x1024.Idx → EReal := m ((c : Thread nD τ).loc main_arg0)
abbrev Tg (c : Dev nD) : S65536.Idx → BitVec 32 := m ((c : Thread nD τ).loc main_arg1)

/-! ## The accumulator after the three trips -/

theorem trips_eq : k0_t1_loop.trips = 3 := by decide

/-- Trip `k` loads the slab at offset `k` along the modality axis. -/
theorem off_eq : ∀ k : Fin k0_t1_loop.trips, k0_off1 k = ![k.val, 0, 0] := by decide +kernel

/-- Entry `(0, r, c)` of slab `k` is entry `(k, r, c)` of the staged block. -/
theorem slab_apply (x0 : Vec Ideal S3x512x1024 .f32) (k : Fin k0_t1_loop.trips) (r : Fin 512) (cc : Fin 1024) :
    slab x0 k (ix3 0 r cc) = x0 (ix3 ⟨k.val, lt_of_lt_of_eq k.isLt trips_eq⟩ r cc) := by
  unfold slab
  show x0 _ = x0 _
  congr 1
  funext a
  apply Fin.ext
  have e := off_eq k
  match a with
  | ⟨0, _⟩ => show k0_off1 k 0 + 1 * 0 = k.val; rw [e]; rfl
  | ⟨1, _⟩ => show k0_off1 k 1 + 1 * r.val = r.val; rw [e]; show 0 + 1 * r.val = r.val; omega
  | ⟨2, _⟩ => show k0_off1 k 2 + 1 * cc.val = cc.val; rw [e]; show 0 + 1 * cc.val = cc.val; omega

/-- After the three trips the accumulator holds, at `(r, c)`, the sum over the modalities of the summand of row `r`. -/
theorem acc_apply (x0 : Vec Ideal S3x512x1024 .f32) (r : Fin 512) (cc : Fin 1024) :
    acc x0 k0_t1_loop.trips (ix2 r cc) = Cert.Spec.sum3 fun k => Cert.Spec.term (fun c' : Fin 1024 => x0 (ix3 k r c')) cc := by
  have h0 : 0 < k0_t1_loop.trips := by decide
  have h1 : 1 < k0_t1_loop.trips := by decide
  have h2 : 2 < k0_t1_loop.trips := by decide
  have e : acc x0 k0_t1_loop.trips
      = k0_pay2 (slab x0 ⟨2, h2⟩) (k0_pay2 (slab x0 ⟨1, h1⟩) (k0_pay2 (slab x0 ⟨0, h0⟩) (k0_pay1 (F := Ideal)))) := by
    have hs : ∀ (k : ℕ) (h : k < k0_t1_loop.trips), acc x0 (k + 1) = k0_pay2 (slab x0 ⟨k, h⟩) (acc x0 k) :=
      fun k h => by rw [acc, dif_pos h]
    refine (congrArg (acc x0) trips_eq).trans ?_
    show acc x0 (2 + 1) = _
    rw [hs 2 h2, hs 1 h1, hs 0 h0]
    rfl
  rw [e, Pay.step_apply, Pay.step_apply, Pay.step_apply, Pay.zero_apply]
  unfold Cert.Spec.sum3
  congr 1
  · congr 1
    · congr 1
      congr 1; funext c'; exact slab_apply x0 ⟨0, h0⟩ r c'
    · congr 1; funext c'; exact slab_apply x0 ⟨1, h1⟩ r c'
  · congr 1; funext c'; exact slab_apply x0 ⟨2, h2⟩ r c'

/-! ## What each point writes back -/

/-- Entry `(r, c)` of the accumulated block at point `t` is `G2` of the logits at row `512·t + r`. -/
theorem acc_blk (c : Dev nD) (t : Fin cfg0.N) (r : Fin 512) (cc : Fin 1024) :
    acc (xblk m c t) k0_t1_loop.trips (ix2 r cc) = Cert.Spec.G2 (Lg m c) (ix2 (rowOf t r) cc) := by
  refine (acc_apply (xblk m c t) r cc).trans ?_
  show _ = Cert.Spec.sum3 fun k => Cert.Spec.term (Cert.Spec.row (Lg m c) k (rowOf t r)) cc
  refine congrArg Cert.Spec.sum3 (funext fun k => ?_)
  refine congrArg (fun x : Fin 1024 → EReal => Cert.Spec.term x cc) (funext fun c' => ?_)
  exact iblk0_apply m c t k r c'

/-- Point `t` writes back its block of `G2` of the logits. -/
theorem flushed2_eq (c : Dev nD) (t : Fin cfg0.N) :
    (dats m 0 c).flushed 2 t = ((cfg0.win 2).blk t).view.read (Elt Ideal) (Cert.Spec.G2 (Lg m c)) := by
  rw [flushed2_A]
  have e := out2_eq (F := Ideal) c (grid0.coords t) (ms0_0 t) (hs0_0 t) (ms0_1 t) (hs0_1 t) (ms0_2 t) (hs0_2 t) (ms0_3 t) (hs0_3 t) (iblk m c 0 t) (iblk m c 1 t)
  rw [e]
  exact blk2_eq t (acc (xblk m c t) k0_t1_loop.trips) (Cert.Spec.G2 (Lg m c)) (acc_blk m c t)

/-- Point `t` writes back its block of `G3` of the logits and the targets. -/
theorem flushed3_eq (c : Dev nD) (t : Fin cfg0.N) :
    (dats m 0 c).flushed 3 t = ((cfg0.win 3).blk t).view.read (Elt Ideal) (Cert.Spec.G3 (Lg m c) (Tg m c)) := by
  rw [flushed3_A]
  have e := out3_eq (F := Ideal) c (grid0.coords t) (ms0_0 t) (hs0_0 t) (ms0_1 t) (hs0_1 t) (ms0_2 t) (hs0_2 t) (ms0_3 t) (hs0_3 t) (iblk m c 0 t) (iblk m c 1 t)
  rw [e]
  refine blk3_eq t (k0_pay3 (acc (xblk m c t) k0_t1_loop.trips) (tblk m c t)) (Cert.Spec.G3 (Lg m c) (Tg m c)) fun r => ?_
  refine (Pay.pick_apply (acc (xblk m c t) k0_t1_loop.trips) (tblk m c t) r).trans ?_
  show _ = Cert.Spec.pickRow (fun cc => Cert.Spec.G2 (Lg m c) (ix2 (rowOf t r) cc)) (Cert.Spec.clipw (Tg m c (ix1 (rowOf t r))))
  exact congrArg₂ Cert.Spec.pickRow (funext fun cc => acc_blk m c t r cc) (iblk1_apply m c t r)

/-! ## The arrays after the run -/

theorem final2 (c : Dev nD) : (dats m 0 c).arrAt 2 cfg0.N = Cert.Spec.G2 (Lg m c) :=
  (dats m 0 c).arrAt_eq_of_cover 2 (Cert.Spec.G2 (Lg m c)) (fun t _ => flushed2_eq m c t) cover2

theorem final3 (c : Dev nD) : (dats m 0 c).arrAt 3 cfg0.N = Cert.Spec.G3 (Lg m c) (Tg m c) :=
  (dats m 0 c).arrAt_eq_of_cover 3 (Cert.Spec.G3 (Lg m c) (Tg m c)) (fun t _ => flushed3_eq m c t) cover3

/-- The idealized kernel's run: both results at the specification's functions of the arguments, the arguments unchanged. -/
theorem run : θ_run defs (onTc (τ := τ) (main (F := Ideal))) ⟨m, fun _ => 0, ρ⟩ fun r => ∀ c : Dev nD,
      r.2.mem ((c : Thread nD τ).loc main_v2_1) = Cert.Spec.G3 (Lg m c) (Tg m c)
      ∧ r.2.mem ((c : Thread nD τ).loc main_v2_0) = Cert.Spec.G2 (Lg m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).2.1.trans (final3 m c), (h c).1.trans (final2 m c), (h c).2.2.1, (h c).2.2.2⟩)
    (run_blocks m ρ)

end Cert.KernelIdeal.KV

end
-- ==== Proof.RefGather.lean ====
import proofs.«407320_j18811956756525_3_alg».proof.ReferenceIdeal
import Idealize.ShloMosaic.Lib.ValueIdx

/-! The reference's gather along axis 1, read at an index.

The operand is `[65536, 1024]`, the start indices `[65536, 1, 1]`, the result `[65536, 1]`. Axis 0 is a
batching axis: the slice starts at `0` there and the batching coordinate is the result's row. Axis 1 is
collapsed and is the one axis the start index names: the start is the word at `(b, 0, 0)` read signed and
clamped into `[0, 1023]`, and there is no offset coordinate. -/

namespace Cert.ReferenceIdeal.RefGather
open Cert.ReferenceIdeal Idealize.ShloMosaic Idealize.ShloMosaic.ValueIdx
variable [Cert.ReferenceIdeal.Facts₀]

/-- Result element `(b, 0)` is the operand at row `b` and at the column the start index at `(b, 0, 0)`
    names, read signed and clamped into `[0, 1023]`. -/
theorem gather_apply {α : Type} (x : S65536x1024.Idx → α) (idx : IVec S65536x1x1 32) (b : Fin 65536) :
    Host.gather gather_S65536x1024_S65536x1x1_S65536x1_n_1_0_0_1_2_11 x idx (ix2 b 0)
      = x (ix2 b ⟨min (idx (ix3 b 0 0)).toInt.toNat 1023, by omega⟩) := by
  unfold Host.gather
  congr 1
  funext a
  refine Fin.ext ?_
  show gather_S65536x1024_S65536x1x1_S65536x1_n_1_0_0_1_2_11.start (ix2 b 0) idx a
      + gather_S65536x1024_S65536x1x1_S65536x1_n_1_0_0_1_2_11.batchCoord (ix2 b 0) a
      + gather_S65536x1024_S65536x1x1_S65536x1_n_1_0_0_1_2_11.offCoord (ix2 b 0) a = _
  match a with
  | ⟨0, h0⟩ =>
    -- the batching axis: start 0, the batching coordinate the row, no offset coordinate
    have hb : (⟨0, h0⟩ : Fin S65536x1024.rank)
        ∈ gather_S65536x1024_S65536x1x1_S65536x1_n_1_0_0_1_2_11.operandBatchingDims :=
      List.mem_singleton.mpr rfl
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, h1⟩ =>
    -- the collapsed axis the start index names: the clamped word, no batching or offset coordinate
    have hc : (⟨1, h1⟩ : Fin S65536x1024.rank)
        ∈ gather_S65536x1024_S65536x1x1_S65536x1_n_1_0_0_1_2_11.collapsedSliceDims :=
      List.mem_singleton.mpr rfl
    have hm : (⟨1, h1⟩ : Fin S65536x1024.rank)
        ∈ gather_S65536x1024_S65536x1x1_S65536x1_n_1_0_0_1_2_11.startIndexMap :=
      List.mem_singleton.mpr rfl
    have hnb : (⟨1, h1⟩ : Fin S65536x1024.rank)
        ∉ gather_S65536x1024_S65536x1x1_S65536x1_n_1_0_0_1_2_11.operandBatchingDims := by
      intro h
      have := List.mem_singleton.mp h
      exact Nat.one_ne_zero (congrArg Fin.val this)
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : gather_S65536x1024_S65536x1x1_S65536x1_n_1_0_0_1_2_11.siIdx (ix2 b 0)
        ⟨List.idxOf (⟨1, h1⟩ : Fin S65536x1024.rank)
          gather_S65536x1024_S65536x1x1_S65536x1_n_1_0_0_1_2_11.startIndexMap,
          List.idxOf_lt_length_iff.2 hm⟩ = ix3 b 0 0 := by
      funext c; refine Fin.ext ?_
      match c with
      | ⟨0, _⟩ => rfl
      | ⟨1, _⟩ => rfl
      | ⟨2, _⟩ => rfl
    rw [hsi]
    rfl

end Cert.ReferenceIdeal.RefGather
-- ==== Proof.RefValue.lean ====
/-
  The reference's two results, index by index, as the specification's functions of its arguments.

  The reference takes log-softmax along the class axis (row maximum folded from −∞, shifted logits, the log of the
  sum of their exponentials), weighs it by `exp (log-softmax · 1)`, sums over the three modalities from zero, and
  picks per row the entry the target names (negative targets wrapped by 1024, then a range test that selects a
  not-a-number word outside [0, 1023]). On real logits the weight is the softmax quotient, so the first result is
  `G2`; on targets in [0, 1023] the wrap does nothing, the range test passes and the gather's clamp does nothing, so
  the second is minus the first result at the named column.
-/
import proofs.«407320_j18811956756525_3_alg».proof.Proof.RefRead
import proofs.«407320_j18811956756525_3_alg».proof.Proof.Pick
import proofs.«407320_j18811956756525_3_alg».proof.Proof.RefGather
import Idealize.ShloMosaic.Lib.ReduceAll
import Idealize.ShloMosaic.Lib.StableHlo.Predicate
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Gen Cert.ReferenceIdeal.ReadP
open Idealize.ShloMosaic Idealize.ShloMosaic.ValueIdx
open Cert.Spec (row rowMax sh se lp term termR sum3 G2 G3)

/-- The logits array at the ideal instance. -/
abbrev Logits := (⟨S3x65536x1024, .f32⟩ : BufTy).Contents (Elt Ideal)

/-! ## Log-softmax, stage by stage, at row `b` of modality `k` -/

/-- The reference's row maximum (its `max` with the −∞ splat included) is the fold of `max` from −∞ over the row. -/
theorem refMax (L : Logits) (k : Fin 3) (b : Fin 65536) :
    val_main_call0_v2 (F := Ideal) L (ix2 k b) = rowMax (row L k b) := by
  rw [val_main_call0_v2_apply, val_main_call0_v1_apply, val_main_call0_cst_0_apply]
  unfold val_main_call0_v0
  rw [Host.reduce_eq_fold_single (FloatOps.maximumf (F := Ideal) (φ := .f32)) _ _ reducesTo_S3x65536x1024_S3x65536_d2 (by decide)]
  have hrow : ∀ (hred : S3x65536x1024.Reduces [2] S3x65536),
      ((L : S3x65536x1024.Idx → EReal) ∘ (hred.lift (ix2 k b))) = row L k b := fun hred => by
    funext c
    show L _ = L _
    congr 1
    funext a
    apply Fin.ext
    match a with
    | ⟨0, _⟩ => rfl
    | ⟨1, _⟩ => rfl
    | ⟨2, _⟩ => rfl
  rw [hrow]
  show max (Ideal.ofBits .f32 0xFF800000#32) (rowMax (row L k b)) = _
  refine max_eq_right ?_
  unfold rowMax
  rw [Finset.le_fold_max]
  exact Or.inl le_rfl

/-- The shifted logit. -/
theorem refSh (L : Logits) (k : Fin 3) (b : Fin 65536) (c : Fin 1024) :
    val_main_call0_v5 (F := Ideal) L (ix3 k b c) = sh (row L k b) c := by
  rw [val_main_call0_v5_apply, val_main_call0_v4_apply, val_main_call0_v3_apply]
  have e : idx_main_call0_v3 (idx_main_call0_v4 (ix3 k b c)) = ix2 k b := by
    funext a; apply Fin.ext; match a with | ⟨0, _⟩ => rfl | ⟨1, _⟩ => rfl
  rw [e, refMax]
  rfl

/-- The normaliser: the reference's `0 + ∑` of the exponentials of the shifted row. -/
theorem refSe (L : Logits) (k : Fin 3) (b : Fin 65536) :
    val_main_call0_v7 (F := Ideal) L (ix2 k b) = se (row L k b) := by
  rw [val_main_call0_v7_apply, val_main_call0_cst_1_apply]
  show Ideal.ofBits .f32 0x00000000#32 + _ = _
  rw [Cert.Spec.zero_eq, zero_add]
  unfold se
  refine Finset.sum_congr rfl fun c _ => ?_
  rw [val_main_call0_v6_apply]
  have e : idx_main_call0_v7 (ix2 k b) c = ix3 k b c := by
    funext a; apply Fin.ext; match a with | ⟨0, _⟩ => rfl | ⟨1, _⟩ => rfl | ⟨2, _⟩ => rfl
  rw [e, refSh]
  rfl

/-- The log-softmax. -/
theorem refLp (L : Logits) (k : Fin 3) (b : Fin 65536) (c : Fin 1024) :
    val_main_v0 (F := Ideal) L (ix3 k b c) = lp (row L k b) c := by
  rw [val_main_v0_apply, refSh, val_main_call0_v10_apply, val_main_call0_v9_apply, val_main_call0_v8_apply]
  have e : idx_main_call0_v8 (idx_main_call0_v10 (ix3 k b c)) = ix2 k b := by
    funext a; apply Fin.ext; match a with | ⟨0, _⟩ => rfl | ⟨1, _⟩ => rfl
  rw [e, refSe]
  rfl

/-- The reference's summand. -/
theorem refTerm (L : Logits) (k : Fin 3) (b : Fin 65536) (c : Fin 1024) :
    val_main_v4 (F := Ideal) L (ix3 k b c) = termR (row L k b) c := by
  rw [val_main_v4_apply, val_main_v3_apply, val_main_v2_apply, val_main_v1_apply, val_main_cst_apply, refLp]
  rfl

/-! ## The first result -/

/-- On real logits the reference's first result is `G2`. -/
theorem ref_v5 (L : Logits) (hL : ∀ i, ∃ r : ℝ, L i = (r : EReal)) : val_main_v5 (F := Ideal) L = G2 L := by
  funext j
  obtain ⟨b, cc, rfl⟩ : ∃ (b : Fin 65536) (cc : Fin 1024), j = ix2 b cc := ⟨j 0, j 1, eq_ix2 j⟩
  rw [val_main_v5_apply, val_main_cst_0_apply]
  show Ideal.ofBits .f32 0x00000000#32 + _ = _
  have e : ∀ k : Fin 3, val_main_v4 (F := Ideal) L (idx_main_v5 (ix2 b cc) k) = term (row L k b) cc := fun k => by
    have e' : idx_main_v5 (ix2 b cc) k = ix3 k b cc := by
      funext a; apply Fin.ext; match a with | ⟨0, _⟩ => rfl | ⟨1, _⟩ => rfl | ⟨2, _⟩ => rfl
    rw [e', refTerm]
    exact Cert.Spec.termR_eq_term _ (fun c => hL _) _
  rw [Finset.sum_congr rfl fun k _ => e k, Cert.Spec.zero_add_sum3]
  rfl

/-! ## The second result -/

/-- The targets array. -/
abbrev Targets := (⟨S65536, .i32⟩ : BufTy).Contents (Elt Ideal)

/-- On a target below 1024 the wrap of negative targets does nothing: the start index at `(b, 0, 0)` is the target. -/
theorem refIdx (tg : Targets) (b : Fin 65536) (hw : (tg (ix1 b)).toNat < 1024) :
    val_main_call1_v5 (F := Ideal) tg (ix3 b 0 0) = tg (ix1 b) := by
  rw [val_main_call1_v5_apply]
  have e : idx_main_call1_v5 (ix3 b 0 0) = (ix2 b 0 : S65536x1.Idx) := by
    funext a; apply Fin.ext
    match a with
    | ⟨0, _⟩ => show ((b.val * 1 + 0) * 1 + 0) / 1 = b.val; omega
    | ⟨1, _⟩ => rfl
  rw [e, val_main_call1_v4_apply, val_main_call1_v1_apply, val_main_v6_apply, val_main_call1_v0_apply, val_main_call1_c_apply]
  have e6 : idx_main_v6 (ix2 b 0 : S65536x1.Idx) = ix1 b := by
    funext a; apply Fin.ext; match a with | ⟨0, _⟩ => rfl
  rw [e6]
  have hlt : ¬ IntOp.cmpi .slt (tg (ix1 b)) 0#32 = 1#1 := by
    rw [StableHlo.Predicate.slt_iff_toNat (by omega) (by decide)]
    exact Nat.not_lt_zero _
  rw [ValueIdx.eq_zero_of_ne_one hlt, ValueIdx.select_zero]

/-- An `and`-fold from 1 over a one-element axis is the `and` of that element with 1. -/
theorem fold_andi_one (f : Fin 1 → BitVec 1) :
    (Finset.univ : Finset (Fin 1)).fold IntOp.andi 1#1 f = IntOp.andi (f 0) 1#1 := by
  rw [Finset.univ_unique, Finset.fold_singleton]; rfl

/-- …so the range test passes there. -/
theorem refInb (tg : Targets) (b : Fin 65536) (hw : (tg (ix1 b)).toNat < 1024) :
    val_main_call1_v12 (F := Ideal) tg (ix2 b 0) = 1#1 := by
  unfold val_main_call1_v12
  have hred : S65536x1x1.Reduces [2] S65536x1 := by decide
  rw [Host.reduce_eq_fold_single IntOp.andi _ _ reducesTo_S65536x1x1_S65536x1_d2 hred]
  rw [val_main_call1_c_3_apply]
  refine (fold_andi_one (fun k => val_main_call1_v11 (F := Ideal) tg (hred.lift (ix2 b 0) k))).trans ?_
  have hl : hred.lift (ix2 b 0) (0 : Fin 1) = ix3 b 0 0 := by
    funext a; apply Fin.ext; match a with | ⟨0, _⟩ => rfl | ⟨1, _⟩ => rfl | ⟨2, _⟩ => rfl
  show IntOp.andi (val_main_call1_v11 (F := Ideal) tg (hred.lift (ix2 b 0) (0 : Fin 1))) 1#1 = 1#1
  rw [hl, val_main_call1_v11_apply, val_main_call1_v7_apply, val_main_call1_v10_apply, refIdx tg b hw,
    val_main_call1_v6_apply, val_main_call1_c_2_apply, val_main_call1_v9_apply, val_main_call1_v8_apply,
    val_main_call1_c_1_apply]
  have h1 : IntOp.cmpi .sge (tg (ix1 b)) 0#32 = 1#1 :=
    (StableHlo.Predicate.sge_iff_toNat (by omega) (by decide)).2 (Nat.zero_le _)
  have h2 : IntOp.cmpi .sle (tg (ix1 b)) 1023#32 = 1#1 :=
    (StableHlo.Predicate.sle_iff_toNat (by omega) (by decide)).2 (by show (tg (ix1 b)).toNat ≤ 1023; omega)
  rw [h1, h2]
  decide

/-- On real logits and targets below 1024 the reference's second result is `G3`. -/
theorem ref_v9 (L : Logits) (tg : Targets) (hL : ∀ i, ∃ r : ℝ, L i = (r : EReal))
    (ht : ∀ j : S65536.Idx, (tg j).toNat < 1024) : val_main_v9 (F := Ideal) L tg = G3 L tg := by
  funext j
  obtain ⟨b, rfl⟩ : ∃ b : Fin 65536, j = ix1 b := ⟨j 0, eq_ix1 j⟩
  have hw := ht (ix1 b)
  rw [val_main_v9_apply, val_main_v8_apply]
  have e8 : idx_main_v8 (ix1 b) = (ix2 b 0 : S65536x1.Idx) := by
    funext a; apply Fin.ext
    match a with
    | ⟨0, _⟩ => show b.val / 1 = b.val; omega
    | ⟨1, _⟩ => rfl
  rw [e8, val_main_v7_apply, refInb tg b hw, ValueIdx.select_one]
  unfold val_main_call1_v13
  rw [Cert.ReferenceIdeal.RefGather.gather_apply, ref_v5 L hL, Cert.Spec.G3_eq L tg (ix1 b) hw]
  show -(G2 L _) = -(G2 L _)
  congr 2
  funext a
  apply Fin.ext
  match a with
  | ⟨0, _⟩ => rfl
  | ⟨1, _⟩ =>
    show min (val_main_call1_v5 (F := Ideal) tg (ix3 b 0 0)).toInt.toNat 1023 = (tg (ix1 b)).toNat
    rw [refIdx tg b hw, StableHlo.Predicate.toInt_eq_toNat_of_lt (by omega), Int.toNat_natCast]
    omega

end Cert.ReferenceIdeal.RefValue

end
-- ==== Proof.PreDecode.lean ====
/-
  The precondition `finite_inputs`, read back. Its printed function is the conjunction of three "for all" statements,
  each a reduction by `and` of a mask to a scalar: every logit has |x| < +∞; every target word is ≥ 0 signed; every target
  word is < 1024 signed. The function being all ones gives each mask 1 at every index, and the masks' elements say:

  * `real_of_pre`: an extended real x with max x (-x) < ⊤ is neither ⊤ nor ⊥, so it is a real number;
  * `range_of_pre`: a 32-bit word w with 0 ≤ w and w < 1024 as signed integers has its sign bit clear, so its unsigned
    value is its signed value, below 1024.
-/
import proofs.«407320_j18811956756525_3_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreDecode
open Idealize.ShloMosaic Cert.Pre_finite_inputs
variable [Cert.Pre_finite_inputs.Facts]

/-- The scalar shape has one index. -/
instance : Subsingleton S_.Idx := ⟨fun a b => funext fun d => d.elim0⟩

/-- The bit pattern 0x7F800000 (exponent all ones, fraction zero, sign clear) denotes +∞. -/
theorem ofBits_inf : Ideal.ofBits .f32 0x7F800000#32 = (⊤ : EReal) := by
  simp [Ideal.ofBits, Ideal.ieee]

/-- An extended real whose absolute value max x (-x) is below +∞ is a real number. -/
theorem real_of_abs_lt_top (x : EReal) (hx : Ideal.cmp .olt (max x (-x)) (⊤ : EReal) = 1#1) : ∃ r : ℝ, x = (r : EReal) := by
  unfold Ideal.cmp at hx
  rw [StableHlo.Predicate.ofBool_eq_one_iff, decide_eq_true_eq, max_lt_iff] at hx
  obtain ⟨h1, h2⟩ := hx
  have ht : x ≠ ⊤ := h1.ne
  have hb : x ≠ ⊥ := fun e => h2.ne (by rw [e]; exact EReal.neg_bot)
  exact ⟨x.toReal, (EReal.coe_toReal ht hb).symm⟩

/-- A word in [0, 1024) as a signed integer is below 1024 as an unsigned one: its sign bit is clear. -/
theorem toNat_lt_of_signed (w : BitVec 32) (h0 : IntOp.cmpi .sge w 0#32 = 1#1) (h1 : IntOp.cmpi .slt w 1024#32 = 1#1) :
    w.toNat < 1024 := by
  unfold IntOp.cmpi at h0 h1
  rw [StableHlo.Predicate.ofBool_eq_one_iff] at h0 h1
  simp only [BitVec.sle, BitVec.slt, decide_eq_true_eq] at h0 h1
  have hz : (0#32 : BitVec 32).toInt = 0 := by decide
  have hk : (1024#32 : BitVec 32).toInt = 1024 := by decide
  rw [hz] at h0
  rw [hk] at h1
  have hw := w.isLt
  have hc := BitVec.toInt_eq_toNat_cond w
  split at hc <;> omega

/-- The three conjuncts of the precondition, each at every index of its mask. -/
theorem conjuncts (L : FVec Ideal S3x65536x1024 .f32) (tg : IVec S65536 32)
    (h : Cert.Pre_finite_inputs.fn (F := Ideal) L tg = fun _ => 1#1) :
    (∀ i : S3x65536x1024.Idx, Ideal.cmp .olt (max (L i) (-(L i))) (Ideal.ofBits .f32 0x7F800000#32) = 1#1)
      ∧ (∀ j : S65536.Idx, IntOp.cmpi .sge (tg j) 0#32 = 1#1)
      ∧ (∀ j : S65536.Idx, IntOp.cmpi .slt (tg j) 1024#32 = 1#1) := by
  have h0 := congrFun h ValueIdx.ix0
  dsimp only [fn] at h0
  obtain ⟨h12, h3⟩ := IntOp.andi_eq_one.1 h0
  obtain ⟨h1, h2⟩ := IntOp.andi_eq_one.1 h12
  exact ⟨fun i => Host.reduce_andi_all _ _ _ _ _ h1 i, fun j => Host.reduce_andi_all _ _ _ _ _ h2 j,
    fun j => Host.reduce_andi_all _ _ _ _ _ h3 j⟩

/-- Under the precondition every logit is a real number. -/
theorem real_of_pre (L : FVec Ideal S3x65536x1024 .f32) (tg : IVec S65536 32)
    (h : Cert.Pre_finite_inputs.fn (F := Ideal) L tg = fun _ => 1#1) (i : S3x65536x1024.Idx) : ∃ r : ℝ, L i = (r : EReal) := by
  have e := (conjuncts L tg h).1 i
  rw [ofBits_inf] at e
  exact real_of_abs_lt_top (L i) e

/-- Under the precondition every target word, read unsigned, is below 1024. -/
theorem range_of_pre (L : FVec Ideal S3x65536x1024 .f32) (tg : IVec S65536 32)
    (h : Cert.Pre_finite_inputs.fn (F := Ideal) L tg = fun _ => 1#1) (j : S65536.Idx) : (tg j).toNat < 1024 :=
  toNat_lt_of_signed (tg j) ((conjuncts L tg h).2.1 j) ((conjuncts L tg h).2.2 j)

end Cert.PreDecode

end
-- ==== Proof.lean ====
/-
  A weighted log-softmax loss over three modalities, the kernel against its jnp reference, over the extended reals.

  For logits `L : [3, 65536, 1024]` and targets `tg : [65536]` both programs return, at `(b, c)`, the sum over the
  three modalities `k` of `softmax(L[k, b, ·])[c] · log_softmax(L[k, b, ·])[c]` (`G2`), and, at `b`, minus that sum
  at the column `tg[b]` (`G3`). They differ in two places. The kernel forms the softmax weight as the quotient
  `exp(shifted) / ∑ exp(shifted)`, the reference as `exp(log_softmax · 1)`: equal on rows of real numbers, where the
  normaliser is a positive real (`Cert.Spec.termR_eq_term`), which is where finiteness of the logits is used. And
  the kernel clamps the target into [0, 1023] and picks by a one-hot sum, while the reference wraps negative targets
  and tests the range before it gathers: equal on targets in [0, 1023], which is the added conjunct of the
  precondition (outside it the reference returns a not-a-number word or reads a wrapped column).

  The kernel side: the accumulator block after the three trips of the body's loop (`Proof/Body.lean`), its entries
  and the pick read at an index (`Proof/Pay.lean`), the blocks laid into the arrays (`Proof/Blocks.lean`,
  `Proof/KernelValue.lean`). The reference side: its run and its stages (`Proof/RefRun.lean`, `Proof/RefRead.lean`),
  the batched gather at an index (`Proof/RefGather.lean`), its two results as `G2` and `G3` (`Proof/RefValue.lean`).
  The precondition decoded into "every logit is real" and "every target is below 1024" (`Proof/PreDecode.lean`).
-/
import proofs.«407320_j18811956756525_3_alg».proof.Defs
import proofs.«407320_j18811956756525_3_alg».proof.Proof.Gen.Kernel
import proofs.«407320_j18811956756525_3_alg».proof.Proof.Gen.Kernel.Skeleton
import proofs.«407320_j18811956756525_3_alg».proof.Proof.Gen.Kernel.Loops
import proofs.«407320_j18811956756525_3_alg».proof.Proof.Gen.Kernel.Launch
import proofs.«407320_j18811956756525_3_alg».proof.Proof.Gen.Kernel.Points
import proofs.«407320_j18811956756525_3_alg».proof.Proof.Gen.Kernel.Frame
import proofs.«407320_j18811956756525_3_alg».proof.Proof.Gen.KernelIdeal
import proofs.«407320_j18811956756525_3_alg».proof.Proof.Gen.KernelIdeal.Skeleton
import proofs.«407320_j18811956756525_3_alg».proof.Proof.Gen.KernelIdeal.Loops
import proofs.«407320_j18811956756525_3_alg».proof.Proof.Gen.KernelIdeal.Launch
import proofs.«407320_j18811956756525_3_alg».proof.Proof.Gen.KernelIdeal.Points
import proofs.«407320_j18811956756525_3_alg».proof.Proof.Gen.KernelIdeal.Frame
import proofs.«407320_j18811956756525_3_alg».proof.Proof.Gen.ReferenceIdeal
import proofs.«407320_j18811956756525_3_alg».proof.Proof.Gen.Pre_finite_inputs
import proofs.«407320_j18811956756525_3_alg».proof.Proof.Gen.KernelIdeal.Value
import proofs.«407320_j18811956756525_3_alg».proof.Proof.RefRun
import proofs.«407320_j18811956756525_3_alg».proof.Proof.RefRead
import proofs.«407320_j18811956756525_3_alg».proof.Proof.KernelValue
import proofs.«407320_j18811956756525_3_alg».proof.Proof.RefValue
import proofs.«407320_j18811956756525_3_alg».proof.Proof.PreDecode
import Idealize.ShloMosaic.Adequacy
import Idealize.ShloMosaic.Init

noncomputable section

namespace Cert.Proof

open Idealize.ShloMosaic Idealize.ShloMosaic.TcCoe Idealize.SL.Sem

/-- The printed kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- And the reference: its run with the results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.RunP.run (F := Ideal) m ρ)

/-- Both idealized programs end with `G3` and `G2` of the arguments: the kernel on any input, the reference on real
    logits and targets below 1024, which the precondition gives. -/
theorem algebraic : Cert.algebraic_KernelIdeal_ReferenceIdeal := by
  intro m ρ m' ρ' hpre hagree
  refine ⟨fun c => Cert.Spec.G3 (Cert.KernelIdeal.KV.Lg m c) (Cert.KernelIdeal.KV.Tg m c),
    fun c => Cert.Spec.G2 (Cert.KernelIdeal.KV.Lg m c), Cert.KernelIdeal.KV.run m ρ, ?_⟩
  refine (θ_run Cert.ReferenceIdeal.defs _ _).mono (fun _ h c => ?_) (Cert.ReferenceIdeal.RunP.run (F := Ideal) m' ρ')
  have hreal := Cert.PreDecode.real_of_pre _ _ (hpre c)
  have hrange := Cert.PreDecode.range_of_pre _ _ (hpre c)
  refine ⟨(h c).1.trans ?_, (h c).2.1.trans ?_, (h c).2.2.1, (h c).2.2.2⟩
  · rw [Cert.ReferenceIdeal.ReadP.val_main_v9_eq, (hagree c).1, (hagree c).2]
    exact Cert.ReferenceIdeal.RefValue.ref_v9 _ _ hreal hrange
  · refine (Cert.ReferenceIdeal.ReadP.val_main_v5_eq _).trans ?_
    rw [(hagree c).1]
    exact Cert.ReferenceIdeal.RefValue.ref_v5 _ hreal

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
